-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  main_v3
-- ==== Kernel.lean ====
abbrev S32x1x1024x1024 : Shape := ⟨4, ![32, 1, 1024, 1024]⟩
abbrev S1x1x1024x1024 : Shape := ⟨4, ![1, 1, 1024, 1024]⟩
abbrev S1024x1024 : Shape := ⟨2, ![1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  rotates_S1024x1024_d0 : S1024x1024.Rotates 0 none
  rotates_S1024x1024_d1 : S1024x1024.Rotates 1 none
  shapeCasts_S1024x1024_S1x1x1024x1024 : S1024x1024.ShapeCasts S1x1x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S32x1x1024x1024.size a
  hwx0_0 : ∀ i : grid0.Coords, EltTy.bits .f32 = 32 ∨ (Rect.block (s := S32x1x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S32x1x1024x1024.size a
  hwx0_1 : ∀ i : grid0.Coords, EltTy.bits .f32 = 32 ∨ (Rect.block (s := S32x1x1024x1024) S1x1x1024x1024.size (cc0_transform_1 i) (hinb0_1 i)).WholeWords (EltTy.packing .f32)

variable [Facts₀]

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1x1024x1024 : Shape := ⟨4, ![32, 1, 1024, 1024]⟩
abbrev S_ : Shape := ⟨0, ![]⟩
abbrev S32x1x1x1024 : Shape := ⟨4, ![32, 1, 1, 1024]⟩
abbrev S32x1x1023x1024 : Shape := ⟨4, ![32, 1, 1023, 1024]⟩
abbrev S32x1x1024x1 : Shape := ⟨4, ![32, 1, 1024, 1]⟩
abbrev S32x1x1024x1023 : Shape := ⟨4, ![32, 1, 1024, 1023]⟩

abbrev nBuf : Space → Nat
  | .hbm => 53
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .i1⟩
  | .hbm, ⟨2, _⟩ => ⟨S_, .f32⟩
  | .hbm, ⟨3, _⟩ => ⟨S32x1x1024x1024, .f32⟩
  | .hbm, ⟨4, _⟩ => ⟨S32x1x1024x1024, .f32⟩
  | .hbm, ⟨5, _⟩ => ⟨S32x1x1x1024, .f32⟩
  | .hbm, ⟨6, _⟩ => ⟨S32x1x1023x1024, .f32⟩
  | .hbm, ⟨7, _⟩ => ⟨S32x1x1024x1024, .f32⟩
  | .hbm, ⟨8, _⟩ => ⟨S32x1x1024x1024, .f32⟩
  | .hbm, ⟨9, _⟩ => ⟨S32x1x1024x1024, .i1⟩
  | .hbm, ⟨10, _⟩ => ⟨S_, .f32⟩
  | .hbm, ⟨11, _⟩ => ⟨S32x1x1024x1024, .f32⟩
  | .hbm, ⟨12, _⟩ => ⟨S32x1x1024x1024, .f32⟩
  | .hbm, ⟨13, _⟩ => ⟨S32x1x1x1024, .f32⟩
  | .hbm, ⟨14, _⟩ => ⟨S32x1x1023x1024, .f32⟩
  | .hbm, ⟨15, _⟩ => ⟨S32x1x1024x1024, .f32⟩
  | .hbm, ⟨16, _⟩ => ⟨S32x1x1024x1024, .f32⟩
  | .hbm, ⟨17, _⟩ => ⟨S32x1x1024x1024, .i1⟩
  | .hbm, ⟨18, _⟩ => ⟨S_, .f32⟩
  | .hbm, ⟨19, _⟩ => ⟨S32x1x1024x1024, .f32⟩
  | .hbm, ⟨20, _⟩ => ⟨S32x1x1024x1024, .f32⟩
  | .hbm, ⟨21, _⟩ => ⟨S32x1x1024x1, .f32⟩
  | .hbm, ⟨22, _⟩ => ⟨S32x1x1024x1023, .f32⟩
  | .hbm, ⟨23, _⟩ => ⟨S32x1x1024x1024, .f32⟩
  | .hbm, ⟨24, _⟩ => ⟨S32x1x1024x1024, .f32⟩
  | .hbm, ⟨25, _⟩ => ⟨S32x1x1024x1024, .i1⟩
  | .hbm, ⟨26, _⟩ => ⟨S_, .f32⟩
  | .hbm, ⟨27, _⟩ => ⟨S32x1x1024x1024, .f32⟩
  | .hbm, ⟨28, _⟩ => ⟨S32x1x1024x1024, .f32⟩
  | .hbm, ⟨29, _⟩ => ⟨S32x1x1024x1, .f32⟩
  | .hbm, ⟨30, _⟩ => ⟨S32x1x1024x1023, .f32⟩
  | .hbm, ⟨31, _⟩ => ⟨S32x1x1024x1024, .f32⟩
  | .hbm, ⟨32, _⟩ => ⟨S32x1x1024x1024, .f32⟩
  | .hbm, ⟨33, _⟩ => ⟨S32x1x1024x1024, .i1⟩
  | .hbm, ⟨34, _⟩ => ⟨S_, .f32⟩
  | .hbm, ⟨35, _⟩ => ⟨S32x1x1024x1024, .f32⟩
  | .hbm, ⟨36, _⟩ => ⟨S32x1x1024x1024, .f32⟩
  | .hbm, ⟨37, _⟩ => ⟨S32x1x1024x1024, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S32x1x1024x1024, .f32⟩
  | .hbm, ⟨42, _⟩ => ⟨S32x1x1024x1024, .f32⟩
  | .hbm, ⟨43, _⟩ => ⟨S_, .f32⟩
  | .hbm, ⟨44, _⟩ => ⟨S32x1x1024x1024, .f32⟩
  | .hbm, ⟨45, _⟩ => ⟨S32x1x1024x1024, .f32⟩
  | .hbm, ⟨46, _⟩ => ⟨S_, .f32⟩
  | .hbm, ⟨47, _⟩ => ⟨S32x1x1024x1024, .f32⟩
  | .hbm, ⟨48, _⟩ => ⟨S32x1x1024x1024, .f32⟩
  | .hbm, ⟨49, _⟩ => ⟨S32x1x1024x1024, .i1⟩
  | .hbm, ⟨50, _⟩ => ⟨S_, .f32⟩
  | .hbm, ⟨51, _⟩ => ⟨S32x1x1024x1024, .f32⟩
  | .hbm, ⟨52, _⟩ => ⟨S32x1x1024x1024, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_call0_v0 : Ref sig .tc := ⟨.hbm, 3, rfl⟩
abbrev main_v1 : Ref sig .tc := ⟨.hbm, 4, rfl⟩
abbrev main_call1_v0 : Ref sig .tc := ⟨.hbm, 5, rfl⟩
abbrev main_call1_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_call2_v0 : Ref sig .tc := ⟨.hbm, 11, rfl⟩
abbrev main_v5 : Ref sig .tc := ⟨.hbm, 12, rfl⟩
abbrev main_call3_v0 : Ref sig .tc := ⟨.hbm, 13, rfl⟩
abbrev main_call3_v1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_call4_v0 : Ref sig .tc := ⟨.hbm, 19, rfl⟩
abbrev main_v9 : Ref sig .tc := ⟨.hbm, 20, rfl⟩
abbrev main_call5_v0 : Ref sig .tc := ⟨.hbm, 21, rfl⟩
abbrev main_call5_v1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_call6_v0 : Ref sig .tc := ⟨.hbm, 27, rfl⟩
abbrev main_v13 : Ref sig .tc := ⟨.hbm, 28, rfl⟩
abbrev main_call7_v0 : Ref sig .tc := ⟨.hbm, 29, rfl⟩
abbrev main_call7_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_call8_v0 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_cst_5 : Ref sig .tc := ⟨.hbm, 39, rfl⟩
abbrev main_call9_v0 : Ref sig .tc := ⟨.hbm, 40, rfl⟩
abbrev main_call9_v1 : Ref sig .tc := ⟨.hbm, 41, rfl⟩
abbrev main_call9_v2 : Ref sig .tc := ⟨.hbm, 42, rfl⟩
abbrev main_call9_v3 : Ref sig .tc := ⟨.hbm, 43, rfl⟩
abbrev main_call9_v4 : Ref sig .tc := ⟨.hbm, 44, rfl⟩
abbrev main_v19 : Ref sig .tc := ⟨.hbm, 45, rfl⟩
abbrev main_cst_6 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_7 : Ref sig .tc := ⟨.hbm, 50, rfl⟩
abbrev main_call10_v0 : Ref sig .tc := ⟨.hbm, 51, rfl⟩
abbrev main_v23 : Ref sig .tc := ⟨.hbm, 52, rfl⟩

abbrev nD : Nat := 1
abbrev τ : Topo := Topo.v7x

variable {F : FTy → Type} [FloatOps F]

class Facts₀ : Prop where
  bcast_S_S32x1x1024x1024 : S_.BroadcastsInDim S32x1x1024x1024 (![] : Fin 0 → Fin S32x1x1024x1024.rank)
  slices_S32x1x1024x1024_S32x1x1x1024_0_0_1023_0 : S32x1x1024x1024.Slices ![0, 0, 1023, 0] S32x1x1x1024
  slices_S32x1x1024x1024_S32x1x1023x1024_0_0_0_0 : S32x1x1024x1024.Slices ![0, 0, 0, 0] S32x1x1023x1024
  concatenates_S32x1x1x1024_S32x1x1023x1024_S32x1x1024x1024_d2 : Shape.Concatenates [S32x1x1x1024, S32x1x1023x1024] S32x1x1024x1024 2
  slices_S32x1x1024x1024_S32x1x1024x1_0_0_0_1023 : S32x1x1024x1024.Slices ![0, 0, 0, 1023] S32x1x1024x1
  slices_S32x1x1024x1024_S32x1x1024x1023_0_0_0_0 : S32x1x1024x1024.Slices ![0, 0, 0, 0] S32x1x1024x1023
  concatenates_S32x1x1024x1_S32x1x1024x1023_S32x1x1024x1024_d3 : Shape.Concatenates [S32x1x1024x1, S32x1x1024x1023] S32x1x1024x1024 3

variable [Facts₀]

class Facts : Prop extends Facts₀ where

variable [Facts]
-- ==== Proof.Stencil.lean ====
/-
  The periodic five-point second difference on a stack of 1024 x 1024 images, as mathematics.

  An image is read on a torus: the row (or column) `k` steps back from position `r` is `(r + 1024 - k) mod 1024`.
  For one image `x` the value kept at `(r, c)` is

      clip ( (x[r-2, c] - 2 x[r-1, c] + x[r, c]) + (x[r, c-2] - 2 x[r, c-1] + x[r, c]) , -1, 1 ) / 2 .

  This file states that value twice over the extended reals, once with each second difference written as
  `(a - 2 b) + c` (`kerAt`) and once as the difference of two first differences `(a - b) - (b - c)` (`refAt`), and
  proves that the two agree wherever the three entries are real numbers: on the extended reals subtraction does not
  regroup at an infinity, so finiteness of the entries is what the law uses. It also reads, at an index, the two-piece
  concatenation "last slice first, then all but the last" that a roll by one step along an axis is made of.
-/
import Idealize.ShloMosaic.PureOps.Ideal
import Idealize.ShloMosaic.PureOps.Ideal.Laws
import Idealize.ShloMosaic.Lib.ValueIdx
import Idealize.ShloMosaic.Lib.Pipeline.Value

noncomputable section

namespace Cert.Laplacian

open Idealize.ShloMosaic Idealize.ShloMosaic.ValueIdx

/-- `n` images of 1024 x 1024 entries, with a unit channel axis. -/
abbrev Stack (n : Nat) : Shape := ⟨4, ![n, 1, 1024, 1024]⟩

/-! ## Positions on the circle of 1024 -/

/-- The position `k` steps back from `r`, around the end. -/
def back (k : Nat) (r : Fin 1024) : Fin 1024 := ⟨(r.val + (1024 - k)) % 1024, Nat.mod_lt _ (by decide)⟩

theorem back_one_val (r : Fin 1024) : (back 1 r).val = (r.val + 1023) % 1024 := rfl
theorem back_two_val (r : Fin 1024) : (back 2 r).val = (r.val + 1022) % 1024 := rfl

/-- One step back taken twice is two steps back. -/
theorem back_back (r : Fin 1024) : back 1 (back 1 r) = back 2 r := by
  apply Fin.ext
  show ((r.val + 1023) % 1024 + 1023) % 1024 = (r.val + 1022) % 1024
  omega

/-- The first position steps back to the last; every other position to the one before it. -/
theorem back_one_zero (r : Fin 1024) (h : r.val = 0) : (back 1 r).val = 1023 := by
  rw [back_one_val, h]
theorem back_one_pos (r : Fin 1024) (h : 0 < r.val) : (back 1 r).val + 1 = r.val := by
  rw [back_one_val]; have := r.isLt; omega

/-! ## The constants -/

/-- The words `2.0`, `1.0`, `-1.0` and `0.5` as extended reals. -/
def two : EReal := Ideal.ofBits .f32 0x40000000#32
def one : EReal := Ideal.ofBits .f32 0x3F800000#32
def negOne : EReal := Ideal.ofBits .f32 0xBF800000#32
def half : EReal := Ideal.ofBits .f32 0x3F000000#32

/-- The word `2.0` denotes the real number 2. -/
theorem two_eq : two = ((2 : ℝ) : EReal) := by
  unfold two
  simp [Ideal.ofBits, Ideal.ieee, -EReal.coe_mul]; norm_num

/-- Clip to `[-1, 1]`, then halve. -/
def clipHalf (v : EReal) : EReal := min one (max negOne v) * half

/-! ## The value at one entry, in the two groupings -/

variable {n : Nat}

/-- The second difference as `(a - 2 b) + c` along the rows and along the columns, summed, clipped and halved. -/
def kerAt (x : (Stack n).Idx → EReal) (b : Fin n) (z : Fin 1) (r c : Fin 1024) : EReal :=
  clipHalf (((x (ix4 b z (back 2 r) c) - two * x (ix4 b z (back 1 r) c)) + x (ix4 b z r c))
    + ((x (ix4 b z r (back 2 c)) - two * x (ix4 b z r (back 1 c))) + x (ix4 b z r c)))

/-- The same with each second difference as a first difference of first differences, `(a - b) - (b - c)`. -/
def refAt (x : (Stack n).Idx → EReal) (b : Fin n) (z : Fin 1) (r c : Fin 1024) : EReal :=
  clipHalf (((x (ix4 b z (back 1 (back 1 r)) c) - x (ix4 b z (back 1 r) c)) - (x (ix4 b z (back 1 r) c) - x (ix4 b z r c)))
    + ((x (ix4 b z r (back 1 (back 1 c))) - x (ix4 b z r (back 1 c))) - (x (ix4 b z r (back 1 c)) - x (ix4 b z r c))))

/-- The whole stack, entry by entry. -/
def stencil (x : (Stack n).Idx → EReal) : (Stack n).Idx → EReal := fun i => kerAt x (i 0) (i 1) (i 2) (i 3)

theorem stencil_ix4 (x : (Stack n).Idx → EReal) (b : Fin n) (z : Fin 1) (r c : Fin 1024) :
    stencil x (ix4 b z r c) = kerAt x b z r c := rfl

/-- Image `t` of a stack, as a stack of one image. -/
def slabOf (A : (Stack n).Idx → EReal) (t : Fin n) : (Stack 1).Idx → EReal := fun y => A (ix4 t (y 1) (y 2) (y 3))

/-- The stencil works image by image: on image `t` alone it gives what it gives on the stack at image `t`. -/
theorem stencil_slab (A : (Stack n).Idx → EReal) (t : Fin n) (y : (Stack 1).Idx) :
    stencil (slabOf A t) y = stencil A (ix4 t (y 1) (y 2) (y 3)) := rfl

/-- On real numbers the two groupings of a second difference agree. -/
theorem second_difference (a b c : ℝ) :
    ((a : EReal) - (b : EReal)) - ((b : EReal) - (c : EReal)) = ((a : EReal) - two * (b : EReal)) + (c : EReal) := by
  rw [two_eq, ← EReal.coe_sub, ← EReal.coe_sub, ← EReal.coe_sub, ← EReal.coe_mul, ← EReal.coe_sub, ← EReal.coe_add]
  congr 1
  ring

/-- Where every entry of the stack is a real number, the two groupings give the same value. -/
theorem refAt_eq_kerAt (x : (Stack n).Idx → EReal) (hx : ∀ i, ∃ v : ℝ, x i = (v : EReal))
    (b : Fin n) (z : Fin 1) (r c : Fin 1024) : refAt x b z r c = kerAt x b z r c := by
  unfold refAt kerAt
  rw [back_back, back_back]
  obtain ⟨a2, h2⟩ := hx (ix4 b z (back 2 r) c)
  obtain ⟨a1, h1⟩ := hx (ix4 b z (back 1 r) c)
  obtain ⟨a0, h0⟩ := hx (ix4 b z r c)
  obtain ⟨e2, g2⟩ := hx (ix4 b z r (back 2 c))
  obtain ⟨e1, g1⟩ := hx (ix4 b z r (back 1 c))
  rw [h2, h1, h0, g2, g1, second_difference, second_difference]

/-! ## A roll by one step, read at an index

`roll(y, 1, axis)` is the concatenation along the axis of the last slice and then all the others: the entry at
position 0 is the last one, the entry at a later position the one before it; in both cases the entry one step back. -/

section Roll
variable {α : Type}

/-- Along the rows (axis 2 of the stack). -/
theorem roll_rows_apply (y : (Stack n).Idx → α)
    (h1 : (Stack n).Slices ![0, 0, 1023, 0] ⟨4, ![n, 1, 1, 1024]⟩)
    (h2 : (Stack n).Slices ![0, 0, 0, 0] ⟨4, ![n, 1, 1023, 1024]⟩)
    (hc : Shape.Concatenates [⟨4, ![n, 1, 1, 1024]⟩, ⟨4, ![n, 1, 1023, 1024]⟩] (Stack n) 2)
    (b : Fin n) (z : Fin 1) (r c : Fin 1024) :
    concatenate (Stack n) 2 [⟨⟨4, ![n, 1, 1, 1024]⟩, extractStridedSlice ⟨4, ![n, 1, 1, 1024]⟩ ![0, 0, 1023, 0] y h1⟩,
      ⟨⟨4, ![n, 1, 1023, 1024]⟩, extractStridedSlice ⟨4, ![n, 1, 1023, 1024]⟩ ![0, 0, 0, 0] y h2⟩] hc (ix4 b z r c)
    = y (ix4 b z (back 1 r) c) := by
  by_cases hr : r.val = 0
  · have hb := back_one_zero r hr
    refine (concatenate_pair_apply_left (t := Stack n) (s₁ := ⟨4, ![n, 1, 1, 1024]⟩) (s₂ := ⟨4, ![n, 1, 1023, 1024]⟩) (2 : Fin 4) _ _ hc (ix4 b z r c) rfl (ix4 b z (⟨0, by decide⟩ : Fin 1) c) ?_).trans ?_
    · intro a
      match a with
      | ⟨0, _⟩ => rfl
      | ⟨1, _⟩ => rfl
      | ⟨2, _⟩ => exact hr.symm
      | ⟨3, _⟩ => rfl
    · refine extractStridedSlice_apply ![0, 0, 1023, 0] y h1 _ _ ?_
      intro a
      match a with
      | ⟨0, _⟩ => show b.val = 0 + b.val; omega
      | ⟨1, _⟩ => show z.val = 0 + z.val; omega
      | ⟨2, _⟩ => show (back 1 r).val = 1023 + 0; omega
      | ⟨3, _⟩ => show c.val = 0 + c.val; omega
  · have hpos : 0 < r.val := Nat.pos_of_ne_zero hr
    have hb := back_one_pos r hpos
    have hlt : (back 1 r).val < 1023 := by have := r.isLt; omega
    refine (concatenate_pair_apply_right (t := Stack n) (s₁ := ⟨4, ![n, 1, 1, 1024]⟩) (s₂ := ⟨4, ![n, 1, 1023, 1024]⟩) (2 : Fin 4) _ _ hc (ix4 b z r c) rfl rfl (ix4 b z (⟨(back 1 r).val, hlt⟩ : Fin 1023) c) ?_ ?_).trans ?_
    · intro a ha
      match a with
      | ⟨0, _⟩ => rfl
      | ⟨1, _⟩ => rfl
      | ⟨2, _⟩ => exact absurd rfl ha
      | ⟨3, _⟩ => rfl
    · show (back 1 r).val + 1 = r.val
      exact hb
    · refine extractStridedSlice_apply ![0, 0, 0, 0] y h2 _ _ ?_
      intro a
      match a with
      | ⟨0, _⟩ => show b.val = 0 + b.val; omega
      | ⟨1, _⟩ => show z.val = 0 + z.val; omega
      | ⟨2, _⟩ => show (back 1 r).val = 0 + (back 1 r).val; omega
      | ⟨3, _⟩ => show c.val = 0 + c.val; omega

/-- Along the columns (axis 3 of the stack). -/
theorem roll_cols_apply (y : (Stack n).Idx → α)
    (h1 : (Stack n).Slices ![0, 0, 0, 1023] ⟨4, ![n, 1, 1024, 1]⟩)
    (h2 : (Stack n).Slices ![0, 0, 0, 0] ⟨4, ![n, 1, 1024, 1023]⟩)
    (hc : Shape.Concatenates [⟨4, ![n, 1, 1024, 1]⟩, ⟨4, ![n, 1, 1024, 1023]⟩] (Stack n) 3)
    (b : Fin n) (z : Fin 1) (r c : Fin 1024) :
    concatenate (Stack n) 3 [⟨⟨4, ![n, 1, 1024, 1]⟩, extractStridedSlice ⟨4, ![n, 1, 1024, 1]⟩ ![0, 0, 0, 1023] y h1⟩,
      ⟨⟨4, ![n, 1, 1024, 1023]⟩, extractStridedSlice ⟨4, ![n, 1, 1024, 1023]⟩ ![0, 0, 0, 0] y h2⟩] hc (ix4 b z r c)
    = y (ix4 b z r (back 1 c)) := by
  by_cases hr : c.val = 0
  · have hb := back_one_zero c hr
    refine (concatenate_pair_apply_left (t := Stack n) (s₁ := ⟨4, ![n, 1, 1024, 1]⟩) (s₂ := ⟨4, ![n, 1, 1024, 1023]⟩) (3 : Fin 4) _ _ hc (ix4 b z r c) rfl (ix4 b z r (⟨0, by decide⟩ : Fin 1)) ?_).trans ?_
    · intro a
      match a with
      | ⟨0, _⟩ => rfl
      | ⟨1, _⟩ => rfl
      | ⟨2, _⟩ => rfl
      | ⟨3, _⟩ => exact hr.symm
    · refine extractStridedSlice_apply ![0, 0, 0, 1023] y h1 _ _ ?_
      intro a
      match a with
      | ⟨0, _⟩ => show b.val = 0 + b.val; omega
      | ⟨1, _⟩ => show z.val = 0 + z.val; omega
      | ⟨2, _⟩ => show r.val = 0 + r.val; omega
      | ⟨3, _⟩ => show (back 1 c).val = 1023 + 0; omega
  · have hpos : 0 < c.val := Nat.pos_of_ne_zero hr
    have hb := back_one_pos c hpos
    have hlt : (back 1 c).val < 1023 := by have := c.isLt; omega
    refine (concatenate_pair_apply_right (t := Stack n) (s₁ := ⟨4, ![n, 1, 1024, 1]⟩) (s₂ := ⟨4, ![n, 1, 1024, 1023]⟩) (3 : Fin 4) _ _ hc (ix4 b z r c) rfl rfl (ix4 b z r (⟨(back 1 c).val, hlt⟩ : Fin 1023)) ?_ ?_).trans ?_
    · intro a ha
      match a with
      | ⟨0, _⟩ => rfl
      | ⟨1, _⟩ => rfl
      | ⟨2, _⟩ => rfl
      | ⟨3, _⟩ => exact absurd rfl ha
    · show (back 1 c).val + 1 = c.val
      exact hb
    · refine extractStridedSlice_apply ![0, 0, 0, 0] y h2 _ _ ?_
      intro a
      match a with
      | ⟨0, _⟩ => show b.val = 0 + b.val; omega
      | ⟨1, _⟩ => show z.val = 0 + z.val; omega
      | ⟨2, _⟩ => show r.val = 0 + r.val; omega
      | ⟨3, _⟩ => show (back 1 c).val = 0 + (back 1 c).val; omega

end Roll

end Cert.Laplacian

end
-- ==== Proof.KerPayload.lean ====
/-
  What the kernel body stores, entry by entry.

  The body views its block (one image, with two unit axes in front) as a 1024 x 1024 image `v`, forms
  `(rot₀²v - 2 rot₀¹v + v) + (rot₁²v - 2 rot₁¹v + v)` where `rotₐᵏ` rotates by `k` along axis `a` (the entry at a position
  is the operand's `k` positions back, around the end), clips the sum to [-1, 1], halves it and views the result as a
  block again. Read at the block's entry `(0, 0, r, c)` that is the stencil's value `kerAt` of the block at `(r, c)`.
-/
import proofs.«163625_j22711787061657_1_alg».proof.Proof.Gen.KernelIdeal.Skeleton
import proofs.«163625_j22711787061657_1_alg».proof.Proof.Stencil
import Idealize.ShloMosaic.Lib.KernelVsHost

noncomputable section

namespace Cert.KernelIdeal.Slab

open Cert.KernelIdeal Cert.KernelIdeal.Gen Idealize.ShloMosaic Idealize.ShloMosaic.ValueIdx Cert.Laplacian

/-- The block viewed as an image: entry `(r, c)` is the block's `(0, 0, r, c)`. -/
theorem image_apply (x0 : Vec Ideal S1x1x1024x1024 .f32) (h : S1x1x1024x1024.ShapeCasts S1024x1024) (z0 z : Fin 1) (r c : Fin 1024) :
    shapeCast S1024x1024 x0 h (ix2 r c) = x0 (ix4 z0 z r c) := by
  refine shapeCast_apply x0 h (ix2 r c) (ix4 z0 z r c) ?_
  rw [Shape.rowMajor_val_four, Shape.rowMajor_val_two]
  show ((z0.val * 1 + z.val) * 1024 + r.val) * 1024 + c.val = r.val * 1024 + c.val
  have h0 := z0.isLt
  have h1 := z.isLt
  omega

/-- The image viewed as a block again. -/
theorem block_apply (v : FVec Ideal S1024x1024 .f32) (h : S1024x1024.ShapeCasts S1x1x1024x1024) (z0 z : Fin 1) (r c : Fin 1024) :
    shapeCast S1x1x1024x1024 v h (ix4 z0 z r c) = v (ix2 r c) := by
  refine shapeCast_apply v h (ix4 z0 z r c) (ix2 r c) ?_
  rw [Shape.rowMajor_val_four, Shape.rowMajor_val_two]
  show r.val * 1024 + c.val = ((z0.val * 1 + z.val) * 1024 + r.val) * 1024 + c.val
  have h0 := z0.isLt
  have h1 := z.isLt
  omega

/-- A rotation by one or two along the rows reads the entry that many rows back. -/
theorem rotate_rows_apply (k : Nat) (hk : k = 1 ∨ k = 2) (v : FVec Ideal S1024x1024 .f32) (h : S1024x1024.Rotates 0 none) (r c : Fin 1024) :
    dynamicRotate 0 (BitVec.ofNat 32 k) none v h (ix2 r c) = v (ix2 (back k r) c) := by
  have hn : (BitVec.ofNat 32 k).toNat = k := by rcases hk with rfl | rfl <;> rfl
  refine dynamicRotate_apply (0 : Fin 2) (BitVec.ofNat 32 k) v h (ix2 r c) (ix2 (back k r) c) ?_
  intro b
  rw [hn]
  match b with
  | ⟨0, _⟩ =>
    show (r.val + (1024 - k)) % 1024 = (r.val + 1024 - k % 1024) % 1024
    rcases hk with rfl | rfl <;> omega
  | ⟨1, _⟩ => rfl

/-- A rotation by one or two along the columns reads the entry that many columns back. -/
theorem rotate_cols_apply (k : Nat) (hk : k = 1 ∨ k = 2) (v : FVec Ideal S1024x1024 .f32) (h : S1024x1024.Rotates 1 none) (r c : Fin 1024) :
    dynamicRotate 1 (BitVec.ofNat 32 k) none v h (ix2 r c) = v (ix2 r (back k c)) := by
  have hn : (BitVec.ofNat 32 k).toNat = k := by rcases hk with rfl | rfl <;> rfl
  refine dynamicRotate_apply (1 : Fin 2) (BitVec.ofNat 32 k) v h (ix2 r c) (ix2 r (back k c)) ?_
  intro b
  rw [hn]
  match b with
  | ⟨0, _⟩ => rfl
  | ⟨1, _⟩ =>
    show (c.val + (1024 - k)) % 1024 = (c.val + 1024 - k % 1024) % 1024
    rcases hk with rfl | rfl <;> omega

/-- The stencil on an image `v`, through the rotations as the body spells them. -/
def imageStencil (v : FVec Ideal S1024x1024 .f32) : FVec Ideal S1024x1024 .f32 := fun j =>
  clipHalf (((dynamicRotate 0 2#32 none v rotates_S1024x1024_d0 j - two * dynamicRotate 0 1#32 none v rotates_S1024x1024_d0 j) + v j)
    + ((dynamicRotate 1 2#32 none v rotates_S1024x1024_d1 j - two * dynamicRotate 1 1#32 none v rotates_S1024x1024_d1 j) + v j))

/-- The body's stored value is that stencil of the block viewed as an image, viewed as a block. -/
theorem payload_eq (x0 : Vec Ideal S1x1x1024x1024 .f32) :
    k0_pay1 (F := Ideal) x0
      = shapeCast S1x1x1024x1024 (imageStencil (shapeCast S1024x1024 x0 shapeCasts_S1x1x1024x1024_S1024x1024)) shapeCasts_S1024x1024_S1x1x1024x1024 := rfl

/-- THE STORED VALUE AT AN ENTRY is the stencil's value of the block there. -/
theorem payload_apply (x0 : Vec Ideal S1x1x1024x1024 .f32) (z0 z : Fin 1) (r c : Fin 1024) :
    k0_pay1 (F := Ideal) x0 (ix4 z0 z r c) = kerAt (n := 1) x0 z0 z r c := by
  rw [payload_eq, block_apply]
  unfold imageStencil kerAt
  rw [rotate_rows_apply 2 (.inr rfl), rotate_rows_apply 1 (.inl rfl), rotate_cols_apply 2 (.inr rfl), rotate_cols_apply 1 (.inl rfl)]
  rw [image_apply x0 _ z0 z, image_apply x0 _ z0 z, image_apply x0 _ z0 z, image_apply x0 _ z0 z, image_apply x0 _ z0 z]

/-- The stored block is the stencil of the loaded block. -/
theorem payload_stencil (x0 : Vec Ideal S1x1x1024x1024 .f32) (y : S1x1x1024x1024.Idx) :
    k0_pay1 (F := Ideal) x0 y = stencil (n := 1) x0 y := by
  obtain ⟨z0, z, r, c, rfl⟩ : ∃ (z0 z : Fin 1) (r c : Fin 1024), y = ix4 z0 z r c := ⟨y 0, y 1, y 2, y 3, eq_ix4 y⟩
  rw [payload_apply, stencil_ix4]

end Cert.KernelIdeal.Slab

end
-- ==== Proof.KerArray.lean ====
/-
  From blocks to the array: the kernel's result is the stencil of its argument.

  Grid point `t` stages image `t` of the argument (block `(t, 0, 0, 0)` of the input window), and writes back, as block
  `(t, 0, 0, 0)` of the result, the body's stored value of that block: the stencil of image `t` alone, which is the
  stencil of the whole stack read on image `t`. The 32 blocks cover the result array (entry `i` lies in the block of
  point `i 0`), so after the run the array is the stencil of the argument.
-/
import proofs.«163625_j22711787061657_1_alg».proof.Proof.Gen.KernelIdeal.Value
import proofs.«163625_j22711787061657_1_alg».proof.Proof.KerPayload

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Laplacian
open Idealize.ShloMosaic.Pipeline (Dat)

variable (m : (ℓ : Loc nD τ sig) → Buf (Elt Ideal) ℓ) (ρ : Dev nD → PrngReg)

theorem offsets_zero : (![0, 0, 0, 0] : Fin 4 → Nat) = fun _ => 0 := funext fun a => by fin_cases a <;> rfl

/-- Both windows' block at point `t` is block `(t, 0, 0, 0)` (decided over the 32 points). -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

/-- The image a grid point works on. -/
def image (t : Fin cfg0.N) : Fin 32 := ⟨t.val, lt_of_lt_of_eq t.isLt N_0⟩

/-- The input block at point `t` is image `t` of the argument. -/
theorem iblk_eq (c : Dev nD) (t : Fin cfg0.N) :
    (iblk m c 0 t : (Stack 1).Idx → EReal) = slabOf (n := 32) (V m c main_arg0) (image t) := by
  obtain ⟨e0, e1, e2, e3, -, -, -, -⟩ := idx_facts t
  funext y
  show V m c main_arg0 (((cfg0.win 0).blk t).view.emb y) = V m c main_arg0 (ix4 (image t) (y 1) (y 2) (y 3))
  refine congrArg _ (funext fun a => Fin.ext ?_)
  have h0 : (y 0).val < 1 := (y 0).isLt
  match a with
  | ⟨0, _⟩ => show win0_0.index t (0 : Fin 4) * 1 + 1 * (y 0).val = t.val; omega
  | ⟨1, _⟩ => show win0_0.index t (1 : Fin 4) * 1 + 1 * (y 1).val = (y 1).val; omega
  | ⟨2, _⟩ => show win0_0.index t (2 : Fin 4) * 1024 + 1 * (y 2).val = (y 2).val; omega
  | ⟨3, _⟩ => show win0_0.index t (3 : Fin 4) * 1024 + 1 * (y 3).val = (y 3).val; omega

/-- Entry `y` of the output block at point `t` is entry `(t, y 1, y 2, y 3)` of the result array. -/
theorem oblk_emb (t : Fin cfg0.N) (y : (Stack 1).Idx) :
    ((cfg0.win 1).blk t).view.emb y = ix4 (image t) (y 1) (y 2) (y 3) := by
  obtain ⟨-, -, -, -, f0, f1, f2, f3⟩ := idx_facts t
  refine funext fun a => Fin.ext ?_
  have h0 : (y 0).val < 1 := (y 0).isLt
  match a with
  | ⟨0, _⟩ => show win0_1.index t (0 : Fin 4) * 1 + 1 * (y 0).val = t.val; omega
  | ⟨1, _⟩ => show win0_1.index t (1 : Fin 4) * 1 + 1 * (y 1).val = (y 1).val; omega
  | ⟨2, _⟩ => show win0_1.index t (2 : Fin 4) * 1024 + 1 * (y 2).val = (y 2).val; omega
  | ⟨3, _⟩ => show win0_1.index t (3 : Fin 4) * 1024 + 1 * (y 3).val = (y 3).val; omega

/-- WHAT POINT `t` WRITES BACK is block `t` of the stencil of the argument array. -/
theorem flushed_eq (c : Dev nD) (t : Fin cfg0.N) :
    (dats m 0 c).flushed 1 t = ((cfg0.win 1).blk t).view.read (Elt Ideal) (stencil (n := 32) (V m c main_arg0)) := by
  rw [Value.flushed1]
  unfold out0_1
  rw [View.canon_unit_zero offsets_zero]
  simp only [View.ld_unit_zero (S := S1x1x1024x1024) offsets_zero]
  funext j
  show k0_pay1 (F := Ideal) (iblk m c 0 t) j = stencil (n := 32) (V m c main_arg0) (((cfg0.win 1).blk t).view.emb j)
  refine (Slab.payload_stencil (iblk m c 0 t) j).trans ?_
  refine (congrArg (fun f : (Stack 1).Idx → EReal => stencil (n := 1) f j) (iblk_eq m c t)).trans ?_
  refine (stencil_slab (n := 32) (V m c main_arg0) (image t) j).trans ?_
  exact congrArg (stencil (n := 32) (V m c main_arg0)) (oblk_emb t j).symm

/-- An index of the result array is in point `t`'s block iff each coordinate is in the block's range on its axis. -/
theorem mem_blk (t : Fin cfg0.N) (i : S32x1x1024x1024.Idx) :
    i ∈ ((cfg0.win 1).blk t).view.set ↔ ∀ a : Fin 4, win0_1.index t a * S1x1x1024x1024.size a ≤ (i a).val ∧ (i a).val < win0_1.index t a * S1x1x1024x1024.size a + S1x1x1024x1024.size a := by
  show i ∈ ((View.whole main_v0).slice (win0_1.rect t)).set ↔ _
  rw [View.set_slice_whole, Rect.mem_set_unit]
  exact Iff.rfl

/-- Every entry of the result array is in the block of the point named by its first coordinate. -/
theorem cover (i : S32x1x1024x1024.Idx) :
    ∃ t : Fin cfg0.N, (cfg0.win 1).flush t = true ∧ i ∈ ((cfg0.win 1).blk t).view.set := by
  have h0 : (i 0).val < 32 := (i 0).isLt
  have h1 : (i 1).val < 1 := (i 1).isLt
  have h2 : (i 2).val < 1024 := (i 2).isLt
  have h3 : (i 3).val < 1024 := (i 3).isLt
  have hN : (i 0).val < cfg0.N := lt_of_lt_of_eq h0 N_0.symm
  obtain ⟨-, -, -, -, f0, f1, f2, f3⟩ := idx_facts ⟨(i 0).val, hN⟩
  have f0' : win0_1.index ⟨(i 0).val, hN⟩ (0 : Fin 4) = (i 0).val := f0
  refine ⟨⟨(i 0).val, hN⟩, flush0_1 _, ?_⟩
  rw [mem_blk]
  intro a
  match a with
  | ⟨0, _⟩ => show win0_1.index ⟨(i 0).val, hN⟩ (0 : Fin 4) * 1 ≤ (i 0).val ∧ (i 0).val < win0_1.index ⟨(i 0).val, hN⟩ (0 : Fin 4) * 1 + 1; omega
  | ⟨1, _⟩ => show win0_1.index ⟨(i 0).val, hN⟩ (1 : Fin 4) * 1 ≤ (i 1).val ∧ (i 1).val < win0_1.index ⟨(i 0).val, hN⟩ (1 : Fin 4) * 1 + 1; omega
  | ⟨2, _⟩ => show win0_1.index ⟨(i 0).val, hN⟩ (2 : Fin 4) * 1024 ≤ (i 2).val ∧ (i 2).val < win0_1.index ⟨(i 0).val, hN⟩ (2 : Fin 4) * 1024 + 1024; omega
  | ⟨3, _⟩ => show win0_1.index ⟨(i 0).val, hN⟩ (3 : Fin 4) * 1024 ≤ (i 3).val ∧ (i 3).val < win0_1.index ⟨(i 0).val, hN⟩ (3 : Fin 4) * 1024 + 1024; omega

/-- THE RESULT ARRAY after the run is the stencil of the argument array. -/
theorem final (c : Dev nD) : (dats m 0 c).arrAt 1 cfg0.N = stencil (n := 32) (V m c main_arg0) :=
  (dats m 0 c).arrAt_eq_of_cover 1 (stencil (n := 32) (V m c main_arg0)) (fun t _ => flushed_eq m c t) cover

/-- The run: the result array at the stencil of the argument, the argument unchanged. -/
theorem run : θ_run defs (onTc (τ := τ) (main (F := Ideal))) ⟨m, fun _ => 0, ρ⟩ fun r => ∀ c : Dev nD,
      r.2.mem ((c : Thread nD τ).loc main_v0) = stencil (n := 32) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.RefRun.lean ====
/-
  The reference's run, stage by stage.

  The reference takes first differences against a roll by one step, twice along the rows and twice along the columns
  of the scrubbed input, and scrubs every intermediate array (an entry unequal to itself is replaced by a constant).
  Each difference is read three times by the next operation, so its program is followed here in six stretches, each
  ending at an array the later ones read: the scrubbed input; the first and the second difference along the rows; the
  first and the second difference along the columns; and the sum, clipped to [-1, 1], halved and scrubbed once more.
  Each stretch's result is one named function (`scrub`, `gradRows`, `gradCols`, `clipScale`) of the array the stretch
  starts from, an array a stretch does not write is kept by it, and the run's result is the composition `refTerm` of
  the argument array, for any float values.
-/
import proofs.«163625_j22711787061657_1_alg».proof.Proof.Gen.ReferenceIdeal
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- A stack of 32 images of float values. -/
abbrev Arr (F : FTy → Type) : Type := (⟨S32x1x1024x1024, .f32⟩ : BufTy).Contents (Elt F)

/-! ## The stages as functions of arrays -/

/-- Replace every entry that is unequal to itself by the constant of word `w`. -/
def scrub (w : BitVec 32) (y : Arr F) : Arr F :=
  select (cmpf .une y y) (broadcastInDim S32x1x1024x1024 ![] bcast_S_S32x1x1024x1024 (constant (F := F) S_ .f32 w)) y

/-- Roll by one step along the rows: the last row, then all the others. -/
def rollRows (y : Arr F) : Arr F :=
  concatenate S32x1x1024x1024 2 [⟨S32x1x1x1024, extractStridedSlice S32x1x1x1024 ![0, 0, 1023, 0] y slices_S32x1x1024x1024_S32x1x1x1024_0_0_1023_0⟩, ⟨S32x1x1023x1024, extractStridedSlice S32x1x1023x1024 ![0, 0, 0, 0] y slices_S32x1x1024x1024_S32x1x1023x1024_0_0_0_0⟩] concatenates_S32x1x1x1024_S32x1x1023x1024_S32x1x1024x1024_d2

/-- Roll by one step along the columns: the last column, then all the others. -/
def rollCols (y : Arr F) : Arr F :=
  concatenate S32x1x1024x1024 3 [⟨S32x1x1024x1, extractStridedSlice S32x1x1024x1 ![0, 0, 0, 1023] y slices_S32x1x1024x1024_S32x1x1024x1_0_0_0_1023⟩, ⟨S32x1x1024x1023, extractStridedSlice S32x1x1024x1023 ![0, 0, 0, 0] y slices_S32x1x1024x1024_S32x1x1024x1023_0_0_0_0⟩] concatenates_S32x1x1024x1_S32x1x1024x1023_S32x1x1024x1024_d3

/-- The scrubbed first difference along the rows, and along the columns. -/
def gradRows (y : Arr F) : Arr F := scrub 0x00000000#32 (subf (rollRows y) y)
def gradCols (y : Arr F) : Arr F := scrub 0x00000000#32 (subf (rollCols y) y)

/-- Clip to [-1, 1], halve, scrub. -/
def clipScale (y : Arr F) : Arr F :=
  scrub 0x00000000#32 (mulf (minimumf (broadcastInDim S32x1x1024x1024 ![] bcast_S_S32x1x1024x1024 (id (constant (F := F) S_ .f32 0x3F800000#32)))
      (maximumf (broadcastInDim S32x1x1024x1024 ![] bcast_S_S32x1x1024x1024 (id (constant (F := F) S_ .f32 0xBF800000#32))) y))
    (broadcastInDim S32x1x1024x1024 ![] bcast_S_S32x1x1024x1024 (constant (F := F) S_ .f32 0x3F000000#32)))

/-- The reference's result as a function of its argument. -/
abbrev refTerm (x : Arr F) : Arr F :=
  clipScale (addf (gradRows (gradRows (scrub 0x3F800000#32 x))) (gradCols (gradCols (scrub 0x3F800000#32 x))))

/-! ## The program's operations, in six stretches -/

/-- The input scrubbed. -/
abbrev opsA : List (HloOp τ sig (Elt F)) :=
  [
    binary main_arg0 main_arg0 main_v0 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst (constant S_ .f32 0x3F800000#32),
    TRef.unary (TRef.of (T := ⟨S_, .f32⟩) main_cst) (TRef.of (T := ⟨S32x1x1024x1024, .f32⟩) main_call0_v0) (broadcastInDim S32x1x1024x1024 ![] bcast_S_S32x1x1024x1024),
    TRef.ternary (TRef.of (T := ⟨S32x1x1024x1024, .i1⟩) main_v0) (TRef.of (T := ⟨S32x1x1024x1024, .f32⟩) main_call0_v0) (TRef.of (T := ⟨S32x1x1024x1024, .f32⟩) main_arg0) (TRef.of (T := ⟨S32x1x1024x1024, .f32⟩) main_v1) select ]

/-- The first difference along the rows. -/
abbrev opsB : List (HloOp τ sig (Elt F)) :=
  [
    TRef.unary (TRef.of (T := ⟨S32x1x1024x1024, .f32⟩) main_v1) (TRef.of (T := ⟨S32x1x1x1024, .f32⟩) main_call1_v0) (extractStridedSlice S32x1x1x1024 ![0, 0, 1023, 0] · slices_S32x1x1024x1024_S32x1x1x1024_0_0_1023_0),
    TRef.unary (TRef.of (T := ⟨S32x1x1024x1024, .f32⟩) main_v1) (TRef.of (T := ⟨S32x1x1023x1024, .f32⟩) main_call1_v1) (extractStridedSlice S32x1x1023x1024 ![0, 0, 0, 0] · slices_S32x1x1024x1024_S32x1x1023x1024_0_0_0_0),
    TRef.binary (TRef.of (T := ⟨S32x1x1x1024, .f32⟩) main_call1_v0) (TRef.of (T := ⟨S32x1x1023x1024, .f32⟩) main_call1_v1) (TRef.of (T := ⟨S32x1x1024x1024, .f32⟩) main_v2) (fun a b => concatenate S32x1x1024x1024 2 [⟨S32x1x1x1024, a⟩, ⟨S32x1x1023x1024, b⟩] concatenates_S32x1x1x1024_S32x1x1023x1024_S32x1x1024x1024_d2),
    binary main_v2 main_v1 main_v3 (subf : (⟨S32x1x1024x1024, .f32⟩ : BufTy).Contents (Elt F) → (⟨S32x1x1024x1024, .f32⟩ : BufTy).Contents (Elt F) → (⟨S32x1x1024x1024, .f32⟩ : BufTy).Contents (Elt F)),
    binary main_v3 main_v3 main_v4 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst_0 (constant S_ .f32 0x00000000#32),
    TRef.unary (TRef.of (T := ⟨S_, .f32⟩) main_cst_0) (TRef.of (T := ⟨S32x1x1024x1024, .f32⟩) main_call2_v0) (broadcastInDim S32x1x1024x1024 ![] bcast_S_S32x1x1024x1024),
    TRef.ternary (TRef.of (T := ⟨S32x1x1024x1024, .i1⟩) main_v4) (TRef.of (T := ⟨S32x1x1024x1024, .f32⟩) main_call2_v0) (TRef.of (T := ⟨S32x1x1024x1024, .f32⟩) main_v3) (TRef.of (T := ⟨S32x1x1024x1024, .f32⟩) main_v5) select ]

/-- The second difference along the rows. -/
abbrev opsC : List (HloOp τ sig (Elt F)) :=
  [
    TRef.unary (TRef.of (T := ⟨S32x1x1024x1024, .f32⟩) main_v5) (TRef.of (T := ⟨S32x1x1x1024, .f32⟩) main_call3_v0) (extractStridedSlice S32x1x1x1024 ![0, 0, 1023, 0] · slices_S32x1x1024x1024_S32x1x1x1024_0_0_1023_0),
    TRef.unary (TRef.of (T := ⟨S32x1x1024x1024, .f32⟩) main_v5) (TRef.of (T := ⟨S32x1x1023x1024, .f32⟩) main_call3_v1) (extractStridedSlice S32x1x1023x1024 ![0, 0, 0, 0] · slices_S32x1x1024x1024_S32x1x1023x1024_0_0_0_0),
    TRef.binary (TRef.of (T := ⟨S32x1x1x1024, .f32⟩) main_call3_v0) (TRef.of (T := ⟨S32x1x1023x1024, .f32⟩) main_call3_v1) (TRef.of (T := ⟨S32x1x1024x1024, .f32⟩) main_v6) (fun a b => concatenate S32x1x1024x1024 2 [⟨S32x1x1x1024, a⟩, ⟨S32x1x1023x1024, b⟩] concatenates_S32x1x1x1024_S32x1x1023x1024_S32x1x1024x1024_d2),
    binary main_v6 main_v5 main_v7 (subf : (⟨S32x1x1024x1024, .f32⟩ : BufTy).Contents (Elt F) → (⟨S32x1x1024x1024, .f32⟩ : BufTy).Contents (Elt F) → (⟨S32x1x1024x1024, .f32⟩ : BufTy).Contents (Elt F)),
    binary main_v7 main_v7 main_v8 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst_1 (constant S_ .f32 0x00000000#32),
    TRef.unary (TRef.of (T := ⟨S_, .f32⟩) main_cst_1) (TRef.of (T := ⟨S32x1x1024x1024, .f32⟩) main_call4_v0) (broadcastInDim S32x1x1024x1024 ![] bcast_S_S32x1x1024x1024),
    TRef.ternary (TRef.of (T := ⟨S32x1x1024x1024, .i1⟩) main_v8) (TRef.of (T := ⟨S32x1x1024x1024, .f32⟩) main_call4_v0) (TRef.of (T := ⟨S32x1x1024x1024, .f32⟩) main_v7) (TRef.of (T := ⟨S32x1x1024x1024, .f32⟩) main_v9) select ]

/-- The first difference along the columns. -/
abbrev opsD : List (HloOp τ sig (Elt F)) :=
  [
    TRef.unary (TRef.of (T := ⟨S32x1x1024x1024, .f32⟩) main_v1) (TRef.of (T := ⟨S32x1x1024x1, .f32⟩) main_call5_v0) (extractStridedSlice S32x1x1024x1 ![0, 0, 0, 1023] · slices_S32x1x1024x1024_S32x1x1024x1_0_0_0_1023),
    TRef.unary (TRef.of (T := ⟨S32x1x1024x1024, .f32⟩) main_v1) (TRef.of (T := ⟨S32x1x1024x1023, .f32⟩) main_call5_v1) (extractStridedSlice S32x1x1024x1023 ![0, 0, 0, 0] · slices_S32x1x1024x1024_S32x1x1024x1023_0_0_0_0),
    TRef.binary (TRef.of (T := ⟨S32x1x1024x1, .f32⟩) main_call5_v0) (TRef.of (T := ⟨S32x1x1024x1023, .f32⟩) main_call5_v1) (TRef.of (T := ⟨S32x1x1024x1024, .f32⟩) main_v10) (fun a b => concatenate S32x1x1024x1024 3 [⟨S32x1x1024x1, a⟩, ⟨S32x1x1024x1023, b⟩] concatenates_S32x1x1024x1_S32x1x1024x1023_S32x1x1024x1024_d3),
    binary main_v10 main_v1 main_v11 (subf : (⟨S32x1x1024x1024, .f32⟩ : BufTy).Contents (Elt F) → (⟨S32x1x1024x1024, .f32⟩ : BufTy).Contents (Elt F) → (⟨S32x1x1024x1024, .f32⟩ : BufTy).Contents (Elt F)),
    binary main_v11 main_v11 main_v12 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst_2 (constant S_ .f32 0x00000000#32),
    TRef.unary (TRef.of (T := ⟨S_, .f32⟩) main_cst_2) (TRef.of (T := ⟨S32x1x1024x1024, .f32⟩) main_call6_v0) (broadcastInDim S32x1x1024x1024 ![] bcast_S_S32x1x1024x1024),
    TRef.ternary (TRef.of (T := ⟨S32x1x1024x1024, .i1⟩) main_v12) (TRef.of (T := ⟨S32x1x1024x1024, .f32⟩) main_call6_v0) (TRef.of (T := ⟨S32x1x1024x1024, .f32⟩) main_v11) (TRef.of (T := ⟨S32x1x1024x1024, .f32⟩) main_v13) select ]

/-- The second difference along the columns. -/
abbrev opsE : List (HloOp τ sig (Elt F)) :=
  [
    TRef.unary (TRef.of (T := ⟨S32x1x1024x1024, .f32⟩) main_v13) (TRef.of (T := ⟨S32x1x1024x1, .f32⟩) main_call7_v0) (extractStridedSlice S32x1x1024x1 ![0, 0, 0, 1023] · slices_S32x1x1024x1024_S32x1x1024x1_0_0_0_1023),
    TRef.unary (TRef.of (T := ⟨S32x1x1024x1024, .f32⟩) main_v13) (TRef.of (T := ⟨S32x1x1024x1023, .f32⟩) main_call7_v1) (extractStridedSlice S32x1x1024x1023 ![0, 0, 0, 0] · slices_S32x1x1024x1024_S32x1x1024x1023_0_0_0_0),
    TRef.binary (TRef.of (T := ⟨S32x1x1024x1, .f32⟩) main_call7_v0) (TRef.of (T := ⟨S32x1x1024x1023, .f32⟩) main_call7_v1) (TRef.of (T := ⟨S32x1x1024x1024, .f32⟩) main_v14) (fun a b => concatenate S32x1x1024x1024 3 [⟨S32x1x1024x1, a⟩, ⟨S32x1x1024x1023, b⟩] concatenates_S32x1x1024x1_S32x1x1024x1023_S32x1x1024x1024_d3),
    binary main_v14 main_v13 main_v15 (subf : (⟨S32x1x1024x1024, .f32⟩ : BufTy).Contents (Elt F) → (⟨S32x1x1024x1024, .f32⟩ : BufTy).Contents (Elt F) → (⟨S32x1x1024x1024, .f32⟩ : BufTy).Contents (Elt F)),
    binary main_v15 main_v15 main_v16 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst_3 (constant S_ .f32 0x00000000#32),
    TRef.unary (TRef.of (T := ⟨S_, .f32⟩) main_cst_3) (TRef.of (T := ⟨S32x1x1024x1024, .f32⟩) main_call8_v0) (broadcastInDim S32x1x1024x1024 ![] bcast_S_S32x1x1024x1024),
    TRef.ternary (TRef.of (T := ⟨S32x1x1024x1024, .i1⟩) main_v16) (TRef.of (T := ⟨S32x1x1024x1024, .f32⟩) main_call8_v0) (TRef.of (T := ⟨S32x1x1024x1024, .f32⟩) main_v15) (TRef.of (T := ⟨S32x1x1024x1024, .f32⟩) main_v17) select ]

/-- The sum, clipped, halved and scrubbed. -/
abbrev opsZ : List (HloOp τ sig (Elt F)) :=
  [
    binary main_v9 main_v17 main_v18 (addf : (⟨S32x1x1024x1024, .f32⟩ : BufTy).Contents (Elt F) → (⟨S32x1x1024x1024, .f32⟩ : BufTy).Contents (Elt F) → (⟨S32x1x1024x1024, .f32⟩ : BufTy).Contents (Elt F)),
    nullary main_cst_4 (constant S_ .f32 0xBF800000#32),
    nullary main_cst_5 (constant S_ .f32 0x3F800000#32),
    TRef.unary (TRef.of (T := ⟨S_, .f32⟩) main_cst_4) (TRef.of (T := ⟨S_, .f32⟩) main_call9_v0) id,
    TRef.unary (TRef.of (T := ⟨S_, .f32⟩) main_call9_v0) (TRef.of (T := ⟨S32x1x1024x1024, .f32⟩) main_call9_v1) (broadcastInDim S32x1x1024x1024 ![] bcast_S_S32x1x1024x1024),
    TRef.binary (TRef.of (T := ⟨S32x1x1024x1024, .f32⟩) main_call9_v1) (TRef.of (T := ⟨S32x1x1024x1024, .f32⟩) main_v18) (TRef.of (T := ⟨S32x1x1024x1024, .f32⟩) main_call9_v2) maximumf,
    TRef.unary (TRef.of (T := ⟨S_, .f32⟩) main_cst_5) (TRef.of (T := ⟨S_, .f32⟩) main_call9_v3) id,
    TRef.unary (TRef.of (T := ⟨S_, .f32⟩) main_call9_v3) (TRef.of (T := ⟨S32x1x1024x1024, .f32⟩) main_call9_v4) (broadcastInDim S32x1x1024x1024 ![] bcast_S_S32x1x1024x1024),
    TRef.binary (TRef.of (T := ⟨S32x1x1024x1024, .f32⟩) main_call9_v4) (TRef.of (T := ⟨S32x1x1024x1024, .f32⟩) main_call9_v2) (TRef.of (T := ⟨S32x1x1024x1024, .f32⟩) main_v19) minimumf,
    nullary main_cst_6 (constant S_ .f32 0x3F000000#32),
    unary main_cst_6 main_v20 (broadcastInDim S32x1x1024x1024 ![] bcast_S_S32x1x1024x1024 : (⟨S_, .f32⟩ : BufTy).Contents (Elt F) → (⟨S32x1x1024x1024, .f32⟩ : BufTy).Contents (Elt F)),
    binary main_v19 main_v20 main_v21 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_v21 main_v21 main_v22 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst_7 (constant S_ .f32 0x00000000#32),
    TRef.unary (TRef.of (T := ⟨S_, .f32⟩) main_cst_7) (TRef.of (T := ⟨S32x1x1024x1024, .f32⟩) main_call10_v0) (broadcastInDim S32x1x1024x1024 ![] bcast_S_S32x1x1024x1024),
    TRef.ternary (TRef.of (T := ⟨S32x1x1024x1024, .i1⟩) main_v22) (TRef.of (T := ⟨S32x1x1024x1024, .f32⟩) main_call10_v0) (TRef.of (T := ⟨S32x1x1024x1024, .f32⟩) main_v21) (TRef.of (T := ⟨S32x1x1024x1024, .f32⟩) main_v23) select ]

/-- @main's 52 operations, in order. -/
abbrev ops : List (HloOp τ sig (Elt F)) :=
  [
    binary main_arg0 main_arg0 main_v0 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst (constant S_ .f32 0x3F800000#32),
    TRef.unary (TRef.of (T := ⟨S_, .f32⟩) main_cst) (TRef.of (T := ⟨S32x1x1024x1024, .f32⟩) main_call0_v0) (broadcastInDim S32x1x1024x1024 ![] bcast_S_S32x1x1024x1024),
    TRef.ternary (TRef.of (T := ⟨S32x1x1024x1024, .i1⟩) main_v0) (TRef.of (T := ⟨S32x1x1024x1024, .f32⟩) main_call0_v0) (TRef.of (T := ⟨S32x1x1024x1024, .f32⟩) main_arg0) (TRef.of (T := ⟨S32x1x1024x1024, .f32⟩) main_v1) select,
    TRef.unary (TRef.of (T := ⟨S32x1x1024x1024, .f32⟩) main_v1) (TRef.of (T := ⟨S32x1x1x1024, .f32⟩) main_call1_v0) (extractStridedSlice S32x1x1x1024 ![0, 0, 1023, 0] · slices_S32x1x1024x1024_S32x1x1x1024_0_0_1023_0),
    TRef.unary (TRef.of (T := ⟨S32x1x1024x1024, .f32⟩) main_v1) (TRef.of (T := ⟨S32x1x1023x1024, .f32⟩) main_call1_v1) (extractStridedSlice S32x1x1023x1024 ![0, 0, 0, 0] · slices_S32x1x1024x1024_S32x1x1023x1024_0_0_0_0),
    TRef.binary (TRef.of (T := ⟨S32x1x1x1024, .f32⟩) main_call1_v0) (TRef.of (T := ⟨S32x1x1023x1024, .f32⟩) main_call1_v1) (TRef.of (T := ⟨S32x1x1024x1024, .f32⟩) main_v2) (fun a b => concatenate S32x1x1024x1024 2 [⟨S32x1x1x1024, a⟩, ⟨S32x1x1023x1024, b⟩] concatenates_S32x1x1x1024_S32x1x1023x1024_S32x1x1024x1024_d2),
    binary main_v2 main_v1 main_v3 (subf : (⟨S32x1x1024x1024, .f32⟩ : BufTy).Contents (Elt F) → (⟨S32x1x1024x1024, .f32⟩ : BufTy).Contents (Elt F) → (⟨S32x1x1024x1024, .f32⟩ : BufTy).Contents (Elt F)),
    binary main_v3 main_v3 main_v4 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst_0 (constant S_ .f32 0x00000000#32),
    TRef.unary (TRef.of (T := ⟨S_, .f32⟩) main_cst_0) (TRef.of (T := ⟨S32x1x1024x1024, .f32⟩) main_call2_v0) (broadcastInDim S32x1x1024x1024 ![] bcast_S_S32x1x1024x1024),
    TRef.ternary (TRef.of (T := ⟨S32x1x1024x1024, .i1⟩) main_v4) (TRef.of (T := ⟨S32x1x1024x1024, .f32⟩) main_call2_v0) (TRef.of (T := ⟨S32x1x1024x1024, .f32⟩) main_v3) (TRef.of (T := ⟨S32x1x1024x1024, .f32⟩) main_v5) select,
    TRef.unary (TRef.of (T := ⟨S32x1x1024x1024, .f32⟩) main_v5) (TRef.of (T := ⟨S32x1x1x1024, .f32⟩) main_call3_v0) (extractStridedSlice S32x1x1x1024 ![0, 0, 1023, 0] · slices_S32x1x1024x1024_S32x1x1x1024_0_0_1023_0),
    TRef.unary (TRef.of (T := ⟨S32x1x1024x1024, .f32⟩) main_v5) (TRef.of (T := ⟨S32x1x1023x1024, .f32⟩) main_call3_v1) (extractStridedSlice S32x1x1023x1024 ![0, 0, 0, 0] · slices_S32x1x1024x1024_S32x1x1023x1024_0_0_0_0),
    TRef.binary (TRef.of (T := ⟨S32x1x1x1024, .f32⟩) main_call3_v0) (TRef.of (T := ⟨S32x1x1023x1024, .f32⟩) main_call3_v1) (TRef.of (T := ⟨S32x1x1024x1024, .f32⟩) main_v6) (fun a b => concatenate S32x1x1024x1024 2 [⟨S32x1x1x1024, a⟩, ⟨S32x1x1023x1024, b⟩] concatenates_S32x1x1x1024_S32x1x1023x1024_S32x1x1024x1024_d2),
    binary main_v6 main_v5 main_v7 (subf : (⟨S32x1x1024x1024, .f32⟩ : BufTy).Contents (Elt F) → (⟨S32x1x1024x1024, .f32⟩ : BufTy).Contents (Elt F) → (⟨S32x1x1024x1024, .f32⟩ : BufTy).Contents (Elt F)),
    binary main_v7 main_v7 main_v8 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst_1 (constant S_ .f32 0x00000000#32),
    TRef.unary (TRef.of (T := ⟨S_, .f32⟩) main_cst_1) (TRef.of (T := ⟨S32x1x1024x1024, .f32⟩) main_call4_v0) (broadcastInDim S32x1x1024x1024 ![] bcast_S_S32x1x1024x1024),
    TRef.ternary (TRef.of (T := ⟨S32x1x1024x1024, .i1⟩) main_v8) (TRef.of (T := ⟨S32x1x1024x1024, .f32⟩) main_call4_v0) (TRef.of (T := ⟨S32x1x1024x1024, .f32⟩) main_v7) (TRef.of (T := ⟨S32x1x1024x1024, .f32⟩) main_v9) select,
    TRef.unary (TRef.of (T := ⟨S32x1x1024x1024, .f32⟩) main_v1) (TRef.of (T := ⟨S32x1x1024x1, .f32⟩) main_call5_v0) (extractStridedSlice S32x1x1024x1 ![0, 0, 0, 1023] · slices_S32x1x1024x1024_S32x1x1024x1_0_0_0_1023),
    TRef.unary (TRef.of (T := ⟨S32x1x1024x1024, .f32⟩) main_v1) (TRef.of (T := ⟨S32x1x1024x1023, .f32⟩) main_call5_v1) (extractStridedSlice S32x1x1024x1023 ![0, 0, 0, 0] · slices_S32x1x1024x1024_S32x1x1024x1023_0_0_0_0),
    TRef.binary (TRef.of (T := ⟨S32x1x1024x1, .f32⟩) main_call5_v0) (TRef.of (T := ⟨S32x1x1024x1023, .f32⟩) main_call5_v1) (TRef.of (T := ⟨S32x1x1024x1024, .f32⟩) main_v10) (fun a b => concatenate S32x1x1024x1024 3 [⟨S32x1x1024x1, a⟩, ⟨S32x1x1024x1023, b⟩] concatenates_S32x1x1024x1_S32x1x1024x1023_S32x1x1024x1024_d3),
    binary main_v10 main_v1 main_v11 (subf : (⟨S32x1x1024x1024, .f32⟩ : BufTy).Contents (Elt F) → (⟨S32x1x1024x1024, .f32⟩ : BufTy).Contents (Elt F) → (⟨S32x1x1024x1024, .f32⟩ : BufTy).Contents (Elt F)),
    binary main_v11 main_v11 main_v12 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst_2 (constant S_ .f32 0x00000000#32),
    TRef.unary (TRef.of (T := ⟨S_, .f32⟩) main_cst_2) (TRef.of (T := ⟨S32x1x1024x1024, .f32⟩) main_call6_v0) (broadcastInDim S32x1x1024x1024 ![] bcast_S_S32x1x1024x1024),
    TRef.ternary (TRef.of (T := ⟨S32x1x1024x1024, .i1⟩) main_v12) (TRef.of (T := ⟨S32x1x1024x1024, .f32⟩) main_call6_v0) (TRef.of (T := ⟨S32x1x1024x1024, .f32⟩) main_v11) (TRef.of (T := ⟨S32x1x1024x1024, .f32⟩) main_v13) select,
    TRef.unary (TRef.of (T := ⟨S32x1x1024x1024, .f32⟩) main_v13) (TRef.of (T := ⟨S32x1x1024x1, .f32⟩) main_call7_v0) (extractStridedSlice S32x1x1024x1 ![0, 0, 0, 1023] · slices_S32x1x1024x1024_S32x1x1024x1_0_0_0_1023),
    TRef.unary (TRef.of (T := ⟨S32x1x1024x1024, .f32⟩) main_v13) (TRef.of (T := ⟨S32x1x1024x1023, .f32⟩) main_call7_v1) (extractStridedSlice S32x1x1024x1023 ![0, 0, 0, 0] · slices_S32x1x1024x1024_S32x1x1024x1023_0_0_0_0),
    TRef.binary (TRef.of (T := ⟨S32x1x1024x1, .f32⟩) main_call7_v0) (TRef.of (T := ⟨S32x1x1024x1023, .f32⟩) main_call7_v1) (TRef.of (T := ⟨S32x1x1024x1024, .f32⟩) main_v14) (fun a b => concatenate S32x1x1024x1024 3 [⟨S32x1x1024x1, a⟩, ⟨S32x1x1024x1023, b⟩] concatenates_S32x1x1024x1_S32x1x1024x1023_S32x1x1024x1024_d3),
    binary main_v14 main_v13 main_v15 (subf : (⟨S32x1x1024x1024, .f32⟩ : BufTy).Contents (Elt F) → (⟨S32x1x1024x1024, .f32⟩ : BufTy).Contents (Elt F) → (⟨S32x1x1024x1024, .f32⟩ : BufTy).Contents (Elt F)),
    binary main_v15 main_v15 main_v16 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst_3 (constant S_ .f32 0x00000000#32),
    TRef.unary (TRef.of (T := ⟨S_, .f32⟩) main_cst_3) (TRef.of (T := ⟨S32x1x1024x1024, .f32⟩) main_call8_v0) (broadcastInDim S32x1x1024x1024 ![] bcast_S_S32x1x1024x1024),
    TRef.ternary (TRef.of (T := ⟨S32x1x1024x1024, .i1⟩) main_v16) (TRef.of (T := ⟨S32x1x1024x1024, .f32⟩) main_call8_v0) (TRef.of (T := ⟨S32x1x1024x1024, .f32⟩) main_v15) (TRef.of (T := ⟨S32x1x1024x1024, .f32⟩) main_v17) select,
    binary main_v9 main_v17 main_v18 (addf : (⟨S32x1x1024x1024, .f32⟩ : BufTy).Contents (Elt F) → (⟨S32x1x1024x1024, .f32⟩ : BufTy).Contents (Elt F) → (⟨S32x1x1024x1024, .f32⟩ : BufTy).Contents (Elt F)),
    nullary main_cst_4 (constant S_ .f32 0xBF800000#32),
    nullary main_cst_5 (constant S_ .f32 0x3F800000#32),
    TRef.unary (TRef.of (T := ⟨S_, .f32⟩) main_cst_4) (TRef.of (T := ⟨S_, .f32⟩) main_call9_v0) id,
    TRef.unary (TRef.of (T := ⟨S_, .f32⟩) main_call9_v0) (TRef.of (T := ⟨S32x1x1024x1024, .f32⟩) main_call9_v1) (broadcastInDim S32x1x1024x1024 ![] bcast_S_S32x1x1024x1024),
    TRef.binary (TRef.of (T := ⟨S32x1x1024x1024, .f32⟩) main_call9_v1) (TRef.of (T := ⟨S32x1x1024x1024, .f32⟩) main_v18) (TRef.of (T := ⟨S32x1x1024x1024, .f32⟩) main_call9_v2) maximumf,
    TRef.unary (TRef.of (T := ⟨S_, .f32⟩) main_cst_5) (TRef.of (T := ⟨S_, .f32⟩) main_call9_v3) id,
    TRef.unary (TRef.of (T := ⟨S_, .f32⟩) main_call9_v3) (TRef.of (T := ⟨S32x1x1024x1024, .f32⟩) main_call9_v4) (broadcastInDim S32x1x1024x1024 ![] bcast_S_S32x1x1024x1024),
    TRef.binary (TRef.of (T := ⟨S32x1x1024x1024, .f32⟩) main_call9_v4) (TRef.of (T := ⟨S32x1x1024x1024, .f32⟩) main_call9_v2) (TRef.of (T := ⟨S32x1x1024x1024, .f32⟩) main_v19) minimumf,
    nullary main_cst_6 (constant S_ .f32 0x3F000000#32),
    unary main_cst_6 main_v20 (broadcastInDim S32x1x1024x1024 ![] bcast_S_S32x1x1024x1024 : (⟨S_, .f32⟩ : BufTy).Contents (Elt F) → (⟨S32x1x1024x1024, .f32⟩ : BufTy).Contents (Elt F)),
    binary main_v19 main_v20 main_v21 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_v21 main_v21 main_v22 (cmpf .une : (⟨S32x1x1024x1024, .f32⟩ : BufTy).Contents (Elt F) → (⟨S32x1x1024x1024, .f32⟩ : BufTy).Contents (Elt F) → (⟨S32x1x1024x1024, .i1⟩ : BufTy).Contents (Elt F)),
    nullary main_cst_7 (constant S_ .f32 0x00000000#32),
    TRef.unary (TRef.of (T := ⟨S_, .f32⟩) main_cst_7) (TRef.of (T := ⟨S32x1x1024x1024, .f32⟩) main_call10_v0) (broadcastInDim S32x1x1024x1024 ![] bcast_S_S32x1x1024x1024),
    TRef.ternary (TRef.of (T := ⟨S32x1x1024x1024, .i1⟩) main_v22) (TRef.of (T := ⟨S32x1x1024x1024, .f32⟩) main_call10_v0) (TRef.of (T := ⟨S32x1x1024x1024, .f32⟩) main_v21) (TRef.of (T := ⟨S32x1x1024x1024, .f32⟩) main_v23) select ]

theorem ops_split : (ops : List (HloOp τ sig (Elt F))) = opsA ++ opsB ++ opsC ++ opsD ++ opsE ++ opsZ := rfl

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., unary_bufs_sub .., ternary_bufs_sub .., unary_bufs_sub .., unary_bufs_sub .., binary_bufs_sub .., binary_bufs_sub .., binary_bufs_sub .., nullary_bufs_sub .., unary_bufs_sub .., ternary_bufs_sub .., unary_bufs_sub .., unary_bufs_sub .., binary_bufs_sub .., binary_bufs_sub .., binary_bufs_sub .., nullary_bufs_sub .., unary_bufs_sub .., ternary_bufs_sub .., unary_bufs_sub .., unary_bufs_sub .., binary_bufs_sub .., binary_bufs_sub .., binary_bufs_sub .., nullary_bufs_sub .., unary_bufs_sub .., ternary_bufs_sub .., unary_bufs_sub .., unary_bufs_sub .., binary_bufs_sub .., binary_bufs_sub .., binary_bufs_sub .., nullary_bufs_sub .., unary_bufs_sub .., ternary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., ternary_bufs_sub ..⟩

/-! ## What each stretch computes and what it keeps -/

/-- Operations run one stretch after the other. -/
theorem after_join : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_join l₁ l₂]

variable (W : Valuation τ sig (Elt F))

theorem A_v1 : after opsA W (Proc.devRef .tc main_v1) = scrub 0x3F800000#32 (W (Proc.devRef .tc main_arg0)) := by
  after_results; rfl

theorem B_v5 : after opsB W (Proc.devRef .tc main_v5) = gradRows (W (Proc.devRef .tc main_v1)) := by
  after_results; rfl
theorem B_keeps_v1 : after opsB W (Proc.devRef .tc main_v1) = W (Proc.devRef .tc main_v1) := by
  after_results

theorem C_v9 : after opsC W (Proc.devRef .tc main_v9) = gradRows (W (Proc.devRef .tc main_v5)) := by
  after_results; rfl
theorem C_keeps_v1 : after opsC W (Proc.devRef .tc main_v1) = W (Proc.devRef .tc main_v1) := by
  after_results

theorem D_v13 : after opsD W (Proc.devRef .tc main_v13) = gradCols (W (Proc.devRef .tc main_v1)) := by
  after_results; rfl
theorem D_keeps_v9 : after opsD W (Proc.devRef .tc main_v9) = W (Proc.devRef .tc main_v9) := by
  after_results

theorem E_v17 : after opsE W (Proc.devRef .tc main_v17) = gradCols (W (Proc.devRef .tc main_v13)) := by
  after_results; rfl
theorem E_keeps_v9 : after opsE W (Proc.devRef .tc main_v9) = W (Proc.devRef .tc main_v9) := by
  after_results

theorem Z_v23 : after opsZ W (Proc.devRef .tc main_v23)
    = clipScale (addf (W (Proc.devRef .tc main_v9)) (W (Proc.devRef .tc main_v17))) := by
  after_results; rfl

/-- The whole program's result buffer holds `refTerm` of the argument's contents. -/
theorem result_eq : after ops W (Proc.devRef .tc main_v23) = refTerm (W (Proc.devRef .tc main_arg0)) := by
  show after (opsA ++ opsB ++ opsC ++ opsD ++ opsE ++ opsZ) W (Proc.devRef .tc main_v23) = _
  rw [after_join, after_join, after_join, after_join, after_join]
  rw [Z_v23, E_v17, E_keeps_v9, D_v13, D_keeps_v9, C_v9, C_keeps_v1, B_v5, B_keeps_v1, A_v1]

/-! ## The run -/

set_option maxRecDepth 8192 in
set_option maxHeartbeats 2000000 in
/-- From any memory with zero counters every weakly fair execution of @main terminates with the result buffer at
    `refTerm` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v23).trans (result_eq (launchContents m c)),
      (h c main_arg0).trans (by after_results_simp <;> rfl)⟩)
    (run_seq scopedRefs_eq scopedSems_eq defs main (fun _ => ops) main_eq (fun _ => ops_sub) m ρ)

end Cert.ReferenceIdeal.Stages

end
-- ==== Proof.RefValue.lean ====
/-
  The reference's result on the extended reals, entry by entry.

  On the extended reals no entry is unequal to itself, so every scrub is the identity; a roll by one step reads the
  entry one step back; so the first difference along the rows at `(r, c)` is `y[r-1, c] - y[r, c]`, taken twice it is
  `(x[r-2, c] - x[r-1, c]) - (x[r-1, c] - x[r, c])`, likewise along the columns, and the result is the value `refAt`.
  Where the input's entries are real numbers that is the stencil's value `kerAt` (the law of Stencil.lean).
-/
import proofs.«163625_j22711787061657_1_alg».proof.Proof.RefRun
import proofs.«163625_j22711787061657_1_alg».proof.Proof.Stencil

noncomputable section

namespace Cert.ReferenceIdeal.Stages

open Cert.ReferenceIdeal Idealize.ShloMosaic Idealize.ShloMosaic.ValueIdx Cert.Laplacian

/-- No extended real is unequal to itself: a scrub changes nothing. -/
theorem scrub_ideal (w : BitVec 32) (y : Arr Ideal) : scrub w y = y := by
  funext i
  show Scalar.select (Ideal.cmp .une (y i) (y i)) _ (y i) = y i
  have h : Ideal.cmp .une (y i) (y i) = 0#1 := by simp [Ideal.cmp]
  rw [h]
  exact select_zero _ _

/-- The first difference along the rows at an entry. -/
theorem gradRows_apply (y : Arr Ideal) (b : Fin 32) (z : Fin 1) (r c : Fin 1024) :
    gradRows y (ix4 b z r c) = y (ix4 b z (back 1 r) c) - y (ix4 b z r c) := by
  unfold gradRows
  rw [scrub_ideal]
  show rollRows y (ix4 b z r c) - y (ix4 b z r c) = _
  rw [show rollRows y (ix4 b z r c) = y (ix4 b z (back 1 r) c) from roll_rows_apply (n := 32) (α := EReal) y _ _ _ b z r c]

/-- The first difference along the columns at an entry. -/
theorem gradCols_apply (y : Arr Ideal) (b : Fin 32) (z : Fin 1) (r c : Fin 1024) :
    gradCols y (ix4 b z r c) = y (ix4 b z r (back 1 c)) - y (ix4 b z r c) := by
  unfold gradCols
  rw [scrub_ideal]
  show rollCols y (ix4 b z r c) - y (ix4 b z r c) = _
  rw [show rollCols y (ix4 b z r c) = y (ix4 b z r (back 1 c)) from roll_cols_apply (n := 32) (α := EReal) y _ _ _ b z r c]

/-- Clip, halve and scrub at an entry. -/
theorem clipScale_apply (y : Arr Ideal) (i : S32x1x1024x1024.Idx) : clipScale y i = clipHalf (y i) := by
  unfold clipScale
  rw [scrub_ideal]
  rfl

/-- THE REFERENCE'S RESULT AT AN ENTRY: differences of differences, summed, clipped, halved. -/
theorem refTerm_apply (x : Arr Ideal) (b : Fin 32) (z : Fin 1) (r c : Fin 1024) :
    refTerm x (ix4 b z r c) = refAt (n := 32) x b z r c := by
  unfold refAt
  show clipScale (addf (gradRows (gradRows (scrub 0x3F800000#32 x))) (gradCols (gradCols (scrub 0x3F800000#32 x)))) (ix4 b z r c) = _
  rw [clipScale_apply, scrub_ideal]
  show clipHalf (gradRows (gradRows x) (ix4 b z r c) + gradCols (gradCols x) (ix4 b z r c)) = _
  rw [gradRows_apply, gradRows_apply, gradRows_apply, gradCols_apply, gradCols_apply, gradCols_apply]

/-- Where the argument's entries are real numbers the reference's result is the stencil of the argument. -/
theorem refTerm_eq_stencil (x : Arr Ideal) (hx : ∀ i, ∃ v : ℝ, x i = (v : EReal)) : refTerm x = stencil (n := 32) x := by
  funext i
  obtain ⟨b, z, r, c, rfl⟩ : ∃ (b : Fin 32) (z : Fin 1) (r c : Fin 1024), i = ix4 b z r c := ⟨i 0, i 1, i 2, i 3, eq_ix4 i⟩
  rw [refTerm_apply, stencil_ix4, refAt_eq_kerAt x hx]

end Cert.ReferenceIdeal.Stages

end
-- ==== Proof.Finite.lean ====
/-
  The precondition read back: every entry of the input is a real number.

  The precondition is one bit, the conjunction over all entries of `|x| < +∞`. If it is set, the comparison holds at
  every entry; on the extended reals `|a| = max a (-a)`, which is `+∞` at both infinities, so an entry that passes is
  neither infinity: it is a real number.
-/
import proofs.«163625_j22711787061657_1_alg».proof.Pre_finite_inputs
import Idealize.ShloMosaic.Lib.ReduceAll
import Idealize.ShloMosaic.Lib.ValueIdx
import Idealize.ShloMosaic.PureOps.Ideal.Laws

noncomputable section

namespace Cert.Pre_finite_inputs.Entries

open Idealize.ShloMosaic Cert.Pre_finite_inputs

/-- A rank-0 array has one index. -/
instance : Subsingleton S_.Idx := ⟨fun _ _ => funext fun d => d.elim0⟩

/-- The word of `+∞` denotes the top of the extended reals. -/
theorem ofBits_inf : Ideal.ofBits .f32 0x7F800000#32 = (⊤ : EReal) := by
  simp [Ideal.ofBits, Ideal.ieee]

/-- An extended real whose absolute value is below `+∞` is a real number. -/
theorem real_of_abs_lt_top (a : EReal) (h : max a (-a) < (⊤ : EReal)) : ∃ v : ℝ, a = (v : EReal) := by
  have hne_top : a ≠ ⊤ := by rintro rfl; simp at h
  have hne_bot : a ≠ ⊥ := by rintro rfl; simp at h
  exact ⟨a.toReal, (EReal.coe_toReal hne_top hne_bot).symm⟩

/-- If the precondition's bit is set, every entry of the input is a real number. -/
theorem entries_real [Facts] (x : FVec Ideal S32x1x1024x1024 .f32) (h : fn (F := Ideal) x = fun _ => 1#1)
    (i : S32x1x1024x1024.Idx) : ∃ v : ℝ, x i = (v : EReal) := by
  have h0 := congrFun h ValueIdx.ix0
  dsimp only [fn] at h0
  have hi := Host.reduce_andi_all _ _ _ _ _ h0 i
  have e : Ideal.cmp .olt (max (x i) (-(x i))) (Ideal.ofBits .f32 0x7F800000#32) = 1#1 := hi
  rw [ofBits_inf] at e
  refine real_of_abs_lt_top (x i) ?_
  by_contra hn
  have e0 : Ideal.cmp .olt (max (x i) (-(x i))) (⊤ : EReal) = 0#1 := by
    show BitVec.ofBool (decide (max (x i) (-(x i)) < (⊤ : EReal))) = 0#1
    rw [decide_eq_false hn]
    rfl
  rw [e0] at e
  exact absurd e (by decide)

end Cert.Pre_finite_inputs.Entries

end
-- ==== Proof.lean ====
/-
  The roll-based Laplacian kernel against its jnp reference, over the extended reals.

  For each of 32 images `x` of 1024 x 1024 finite entries, read on a torus, both programs compute

      clip( (x[r-2,c] - 2 x[r-1,c] + x[r,c]) + (x[r,c-2] - 2 x[r,c-1] + x[r,c]), -1, 1 ) / 2 .

  The kernel takes one image per grid point and forms each second difference from two rotations of the image as
  `(a - 2 b) + c` (KerPayload.lean: the stored value entry by entry; KerArray.lean: the 32 written blocks cover the
  result array, which is therefore the stencil of the argument). The reference takes a first difference against a roll
  by one step twice, `(a - b) - (b - c)`, and replaces entries unequal to themselves after every step; on the extended
  reals there are none, so those steps change nothing (RefRun.lean: the program stage by stage; RefValue.lean: its
  result entry by entry). The two groupings agree on real numbers (Stencil.lean), and the precondition says every
  entry of the input is one (Finite.lean); at an infinite entry the two groupings would differ, so the precondition is
  used. The idealization rewrote nothing, so there is nothing to preserve; the two kernel frames are the generated
  ones, and the reference's frame is its run with the result dropped.
-/
import proofs.«163625_j22711787061657_1_alg».proof.Defs
import proofs.«163625_j22711787061657_1_alg».proof.Proof.Gen.Kernel
import proofs.«163625_j22711787061657_1_alg».proof.Proof.Gen.Kernel.Skeleton
import proofs.«163625_j22711787061657_1_alg».proof.Proof.Gen.Kernel.Launch
import proofs.«163625_j22711787061657_1_alg».proof.Proof.Gen.Kernel.Points
import proofs.«163625_j22711787061657_1_alg».proof.Proof.Gen.Kernel.Frame
import proofs.«163625_j22711787061657_1_alg».proof.Proof.Gen.KernelIdeal
import proofs.«163625_j22711787061657_1_alg».proof.Proof.Gen.KernelIdeal.Skeleton
import proofs.«163625_j22711787061657_1_alg».proof.Proof.Gen.KernelIdeal.Launch
import proofs.«163625_j22711787061657_1_alg».proof.Proof.Gen.KernelIdeal.Points
import proofs.«163625_j22711787061657_1_alg».proof.Proof.Gen.KernelIdeal.Frame
import proofs.«163625_j22711787061657_1_alg».proof.Proof.Gen.KernelIdeal.Value
import proofs.«163625_j22711787061657_1_alg».proof.Proof.Gen.ReferenceIdeal
import proofs.«163625_j22711787061657_1_alg».proof.Proof.Gen.Pre_finite_inputs
import proofs.«163625_j22711787061657_1_alg».proof.Proof.KerArray
import proofs.«163625_j22711787061657_1_alg».proof.Proof.RefValue
import proofs.«163625_j22711787061657_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- The reference runs and leaves its argument unchanged: its run, the result dropped. -/
theorem frame_reference : Cert.frame_ReferenceIdeal := fun m ρ _ =>
  (θ_run Cert.ReferenceIdeal.defs _ _).mono (fun _ h c => (h c).2) (Cert.ReferenceIdeal.Stages.run (F := Ideal) m ρ)

/-- No operation was rewritten for the reading over the extended reals. -/
theorem preserves : Cert.preserves_Kernel_KernelIdeal := trivial

/-- Both programs end with the stencil of the argument: the kernel by its blocks, the reference by its stages and the
    law that regroups a second difference of real numbers. -/
theorem algebraic : Cert.algebraic_KernelIdeal_ReferenceIdeal := by
  intro m ρ m' ρ' hpre hagree
  refine ⟨fun c => Cert.Laplacian.stencil (n := 32) (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Stages.run (F := Ideal) m' ρ')
  rw [hagree c]
  exact Cert.ReferenceIdeal.Stages.refTerm_eq_stencil _ (Cert.Pre_finite_inputs.Entries.entries_real _ (hpre c))

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
